-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32768 : Shape := ⟨2, ![512, 32768]⟩
abbrev S32768x64 : Shape := ⟨2, ![32768, 64]⟩
abbrev S32769 : Shape := ⟨1, ![32769]⟩
abbrev S1048576 : Shape := ⟨1, ![1048576]⟩
abbrev S_ : Shape := ⟨0, ![]⟩

class Facts : Prop where
  bcast_S_S512x32768 : S_.BroadcastsInDim S512x32768 (![] : Fin 0 → Fin S512x32768.rank)
  reducesTo_S512x32768_S_d0_1 : S512x32768.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  main_v18

def fn {F : FTy → Type} [FloatOps F] (main_arg0 : FVec F S512x32768 .f32) (main_arg1 : FVec F S32768x64 .f32) (main_arg2 : FVec F S32768x64 .f32) (main_arg3 : IVec S32769 32) (main_arg4 : IVec S1048576 32) (main_arg5 : FVec F S1048576 .f32) : IVec S_ 1 :=
  let main_v0 : FVec F S512x32768 .f32 := Host.absf main_arg0
  let main_cst : FVec F S_ .f32 := constant S_ .f32 0x7F800000#32
  let main_v1 : FVec F S512x32768 .f32 := broadcastInDim S512x32768 ![] bcast_S_S512x32768 main_cst
  let main_v2 : IVec S512x32768 1 := cmpf .olt main_v0 main_v1
  let main_c : IVec S_ 1 := constantI S_ 1 1#1
  let main_v3 : IVec S_ 1 := (fun x v => Host.reduce IntOp.andi x v reducesTo_S512x32768_S_d0_1 h_S_) main_v2 main_c
  let main_v4 : FVec F S32768x64 .f32 := Host.absf main_arg1
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S32768x64 .f32 := Host.absf main_arg2
  let main_cst_2 : FVec F S_ .f32 := constant S_ .f32 0x7F800000#32
  let main_v10 : FVec F S32768x64 .f32 := broadcastInDim S32768x64 ![] bcast_S_S32768x64 main_cst_2
  let main_v11 : IVec S32768x64 1 := cmpf .olt main_v9 main_v10
  let main_c_3 : IVec S_ 1 := constantI S_ 1 1#1
  let main_v12 : IVec S_ 1 := (fun x v => Host.reduce IntOp.andi x v reducesTo_S32768x64_S_d0_1 h_S_) main_v11 main_c_3
  let main_v13 : IVec S_ 1 := andi main_v8 main_v12
  let main_v14 : FVec F S1048576 .f32 := Host.absf main_arg5
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_v13 main_v16
-- ==== Kernel.lean ====
abbrev S512x32768 : Shape := ⟨2, ![512, 32768]⟩
abbrev S32768x64 : Shape := ⟨2, ![32768, 64]⟩
abbrev S32769 : Shape := ⟨1, ![32769]⟩
abbrev S1048576 : Shape := ⟨1, ![1048576]⟩
abbrev S512x64 : Shape := ⟨2, ![512, 64]⟩
abbrev S512x4096 : Shape := ⟨2, ![512, 4096]⟩
abbrev S4096x64 : Shape := ⟨2, ![4096, 64]⟩

abbrev nBuf : Space → Nat
  | .hbm => 8
  | .vmem => 10
  | .smem => 0
  | _ => 0

abbrev bufTy : (tb : Table) → Fin (tcTables nBuf tb) → BufTy
  | .hbm, ⟨0, _⟩ => ⟨S512x32768, .f32⟩
  | .hbm, ⟨1, _⟩ => ⟨S32768x64, .f32⟩
  | .hbm, ⟨2, _⟩ => ⟨S32768x64, .f32⟩
  | .hbm, ⟨3, _⟩ => ⟨S32769, .i32⟩
  | .hbm, ⟨4, _⟩ => ⟨S1048576, .i32⟩
  | .hbm, ⟨5, _⟩ => ⟨S1048576, .f32⟩
  | .hbm, ⟨6, _⟩ => ⟨S512x64, .f32⟩
  | .hbm, ⟨7, _⟩ => ⟨S512x32768, .f32⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S4096x64, .f32⟩
  | .local _ .vmem, ⟨4, _⟩ => ⟨S512x64, .f32⟩
  | .local _ .vmem, ⟨5, _⟩ => ⟨S512x64, .f32⟩
  | .local _ .vmem, ⟨6, _⟩ => ⟨S4096x64, .f32⟩
  | .local _ .vmem, ⟨7, _⟩ => ⟨S4096x64, .f32⟩
  | .local _ .vmem, ⟨8, _⟩ => ⟨S512x4096, .f32⟩
  | .local _ .vmem, ⟨9, _⟩ => ⟨S512x4096, .f32⟩
  | _, _ => ⟨S512x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S512x64_S512x64_0_0 : ∀ a, (![0, 0] : Fin 2 → Nat) a + S512x64.size a ≤ S512x64.size a
  h_S512x64 : 0 < S512x64.numel
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S512x64_S512x64 : S512x64.ShapeCasts S512x64
  dot_S512x4096_S4096x64_S512x64_1_0_0_1_n_n_wf : DotDims.WF S512x4096 S4096x64 S512x64 [1] [0] [0] [1] [] []
  dot_S512x64_S4096x64_S512x4096_1_1_0_0_n_n_wf : DotDims.WF S512x64 S4096x64 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x32768.size a
  hwx0_0 : ∀ i : grid0.Coords, EltTy.bits .f32 = 32 ∨ (Rect.block (s := S512x32768) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S32768x64.size a
  hwx0_1 : ∀ i : grid0.Coords, EltTy.bits .f32 = 32 ∨ (Rect.block (s := S32768x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S512x64.size a
  hwx1_0 : ∀ i : grid1.Coords, EltTy.bits .f32 = 32 ∨ (Rect.block (s := S512x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S32768x64.size a
  hwx1_1 : ∀ i : grid1.Coords, EltTy.bits .f32 = 32 ∨ (Rect.block (s := S32768x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S512x32768.size a
  hwx1_2 : ∀ i : grid1.Coords, EltTy.bits .f32 = 32 ∨ (Rect.block (s := S512x32768) S512x4096.size (cc1_transform_2 i) (hinb1_2 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x32768 : Shape := ⟨2, ![512, 32768]⟩
abbrev S32768x64 : Shape := ⟨2, ![32768, 64]⟩
abbrev S32769 : Shape := ⟨1, ![32769]⟩
abbrev S1048576 : Shape := ⟨1, ![1048576]⟩
abbrev S512x64 : Shape := ⟨2, ![512, 64]⟩
abbrev S64x32768 : Shape := ⟨2, ![64, 32768]⟩

abbrev nBuf : Space → Nat
  | .hbm => 9
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S32768x64, .f32⟩
  | .hbm, ⟨2, _⟩ => ⟨S32768x64, .f32⟩
  | .hbm, ⟨3, _⟩ => ⟨S32769, .i32⟩
  | .hbm, ⟨4, _⟩ => ⟨S1048576, .i32⟩
  | .hbm, ⟨5, _⟩ => ⟨S1048576, .f32⟩
  | .hbm, ⟨6, _⟩ => ⟨S512x64, .f32⟩
  | .hbm, ⟨7, _⟩ => ⟨S64x32768, .f32⟩
  | .hbm, ⟨8, _⟩ => ⟨S512x32768, .f32⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  transposes_S32768x64_S64x32768_1_0 : S32768x64.Transposes [1, 0] S64x32768
  dot_S512x32768_S32768x64_S512x64_1_0_0_1_n_n_wf : DotDims.WF S512x32768 S32768x64 S512x64 [1] [0] [0] [1] [] []
  dot_S512x64_S64x32768_S512x32768_1_0_0_1_n_n_wf : DotDims.WF S512x64 S64x32768 S512x32768 [1] [0] [0] [1] [] []

variable [Facts₀]

def dot_S512x32768_S32768x64_S512x64_1_0_0_1_n_n : DotDims S512x32768 S32768x64 S512x64 where
  lhsContracting := [1]
  rhsContracting := [0]
  lhsNonContracting := [0]
  rhsNonContracting := [1]
  lhsBatch := []
  rhsBatch := []
  wf := dot_S512x32768_S32768x64_S512x64_1_0_0_1_n_n_wf
def dot_S512x64_S64x32768_S512x32768_1_0_0_1_n_n : DotDims S512x64 S64x32768 S512x32768 where
  lhsContracting := [1]
  rhsContracting := [0]
  lhsNonContracting := [0]
  rhsNonContracting := [1]
  lhsBatch := []
  rhsBatch := []
  wf := dot_S512x64_S64x32768_S512x32768_1_0_0_1_n_n_wf

class Facts : Prop extends Facts₀ where

variable [Facts]
-- ==== Proof.Spec.lean ====
/-
  The function both programs compute, over the extended reals.

  With `X` the `[512, 32768]` input, `Vm` and `Um` the two `[32768, 64]` factors:
    the projection   z (b, r) = ∑ t < 32768, X (b, t) · Vm (t, r)          (`proj`,   `[512, 64]`)
    the expansion    y (b, q) = ∑ r < 64,    z (b, r) · Um (q, r)          (`expand`, `[512, 32768]`)
  and the result is `expand (proj X Vm) Um`, that is `X · Vm · Umᵀ` (`lowRank`). The three sparse-mask arguments of
  the programs are read by neither.
-/
import Idealize.ShloMosaic.Lib.ValueIdx
import Idealize.ShloMosaic.PureOps.Ideal

noncomputable section

namespace Cert.Spec

open Idealize.ShloMosaic Idealize.ShloMosaic.ValueIdx

abbrev SX : Shape := ⟨2, ![512, 32768]⟩
abbrev SW : Shape := ⟨2, ![32768, 64]⟩
abbrev SZ : Shape := ⟨2, ![512, 64]⟩

/-- Entry `(b, r)` of `X · Vm`. -/
def projAt (X : SX.Idx → EReal) (Vm : SW.Idx → EReal) (b : Fin 512) (r : Fin 64) : EReal :=
  ∑ t : Fin 32768, X (ix2 b t) * Vm (ix2 t r)

/-- `X · Vm`. -/
def proj (X : SX.Idx → EReal) (Vm : SW.Idx → EReal) : SZ.Idx → EReal := fun i => projAt X Vm (i 0) (i 1)

/-- Entry `(b, q)` of `z · Umᵀ`. -/
def expandAt (z : SZ.Idx → EReal) (Um : SW.Idx → EReal) (b : Fin 512) (q : Fin 32768) : EReal :=
  ∑ r : Fin 64, z (ix2 b r) * Um (ix2 q r)

/-- `z · Umᵀ`. -/
def expand (z : SZ.Idx → EReal) (Um : SW.Idx → EReal) : SX.Idx → EReal := fun i => expandAt z Um (i 0) (i 1)

/-- `X · Vm · Umᵀ`. -/
def lowRank (X : SX.Idx → EReal) (Um Vm : SW.Idx → EReal) : SX.Idx → EReal := expand (proj X Vm) Um

theorem proj_apply (X : SX.Idx → EReal) (Vm : SW.Idx → EReal) (b : Fin 512) (r : Fin 64) :
    proj X Vm (ix2 b r) = projAt X Vm b r := rfl

theorem expand_apply (z : SZ.Idx → EReal) (Um : SW.Idx → EReal) (b : Fin 512) (q : Fin 32768) :
    expand z Um (ix2 b q) = expandAt z Um b q := rfl

end Cert.Spec

end
-- ==== Proof.RefValue.lean ====
/-
  The reference is the specification: its two `dot_general`s are the textbook sums, and the transpose between them
  only swaps the two coordinates at which the second factor is read, so entry `(b, q)` of its result is
  `∑ r, (∑ t, X (b, t) · Vm (t, r)) · Um (q, r)`.
-/
import proofs.«113373_j20349555048715_1_alg».proof.Defs
import proofs.«113373_j20349555048715_1_alg».proof.Proof.Gen.ReferenceIdeal.Run
import proofs.«113373_j20349555048715_1_alg».proof.Proof.Gen.ReferenceIdeal.Read
import proofs.«113373_j20349555048715_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's result, as a function of its first three arguments, is `X · Vm · Umᵀ`. -/
theorem result_eq (x0 : (⟨S512x32768, .f32⟩ : BufTy).Contents (Elt Ideal)) (x1 x2 : (⟨S32768x64, .f32⟩ : BufTy).Contents (Elt Ideal)) :
    val_main_v2 (F := Ideal) x0 x1 x2 = Cert.Spec.lowRank (fun i => x0 i) (fun i => x1 i) (fun i => x2 i) := by
  funext i
  obtain ⟨b, q, rfl⟩ : ∃ (b : Fin 512) (q : Fin 32768), i = ix2 b q := ⟨i 0, i 1, eq_ix2 i⟩
  rw [val_main_v2_apply]
  show _ = ∑ r : Fin 64, Cert.Spec.proj (fun i => x0 i) (fun i => x2 i) (ix2 b r) * x1 (ix2 q r)
  refine Finset.sum_congr rfl fun r _ => ?_
  have e1 : lidx_main_v2 (ix2 b q) r = ix2 b r := funext fun a => Fin.ext (by
    match a with
    | ⟨0, _⟩ => rfl
    | ⟨1, _⟩ => rfl)
  have e2 : idx_main_v1 (ridx_main_v2 (ix2 b q) r) = ix2 q r := funext fun a => Fin.ext (by
    match a with
    | ⟨0, _⟩ => rfl
    | ⟨1, _⟩ => rfl)
  have e3 : ∀ t : Fin 32768, lidx_main_v0 (ix2 b r) t = ix2 b t := fun t => funext fun a => Fin.ext (by
    match a with
    | ⟨0, _⟩ => rfl
    | ⟨1, _⟩ => rfl)
  have e4 : ∀ t : Fin 32768, ridx_main_v0 (ix2 b r) t = ix2 t r := fun t => funext fun a => Fin.ext (by
    match a with
    | ⟨0, _⟩ => rfl
    | ⟨1, _⟩ => rfl)
  rw [e1, val_main_v0_apply, val_main_v1_apply, e2]
  simp only [e3, e4]
  rfl

end Cert.ReferenceIdeal.RefValue

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibBlockedDot.lean ====
/-
  Two facts about matrix products over the extended reals; nothing here depends on the sizes.

  (1) A product whose right operand is kept transposed. With dimension numbers that contract the SECOND axis of both
  operands, an `[R, K]` matrix `x` and an `[M, K]` matrix `w` give the `[R, M]` matrix
  `(r, c) ↦ ∑ k, x (r, k) · w (c, k)`: that is `x · wᵀ` without the transpose ever being formed
  (`TransDot.sum_eq`, `matmul_zero_trans_apply`). Narrowing the operands to bf16 is the identity over the extended reals.

  (2) A sum over `B · T` consecutive indices is the sum, over the `B` blocks of `T` consecutive indices, of each
  block's sum (`sum_blocks`). Addition in a commutative monoid may be regrouped freely, so this holds of extended reals
  with no finiteness assumption; it is what makes a product accumulated block by block along the contracted axis equal
  to the product taken at once.
-/
import Idealize.ShloMosaic.Lib.ValueIdx
import Idealize.ShloMosaic.Lib.Pipeline.Value
import Idealize.ShloMosaic.PureOps.Ideal.Laws

noncomputable section

namespace Cert.Lib

open Idealize.ShloMosaic Idealize.ShloMosaic.ValueIdx

/-- The dimension numbers `d` describe the product of an `[R, K]` matrix by the TRANSPOSE of an `[M, K]` matrix: one
    contracted index of extent `K`, the column of both operands; the result's row is the left operand's row and its
    column the right operand's row. -/
structure TransDot {R K M : ℕ} (d : DotDims ⟨2, ![R, K]⟩ ⟨2, ![M, K]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (i 1).val
  r1 : ∀ (i : (⟨2, ![R, M]⟩ : Shape).Idx) (q : d.contr.Idx), (d.rhsIdx i q 1).val = (q ⟨0, by omega⟩).val

variable {R K M : ℕ}

/-- The sum over the record's contraction index is the sum over `k < K` of `x (r, k) · w (c, k)`. -/
theorem TransDot.sum_eq {d : DotDims ⟨2, ![R, K]⟩ ⟨2, ![M, K]⟩ ⟨2, ![R, M]⟩} (h : TransDot d)
    (x : (⟨2, ![R, K]⟩ : Shape).Idx → EReal) (w : (⟨2, ![M, K]⟩ : Shape).Idx → EReal) (r : Fin R) (c : Fin M) :
    ∑ k : d.contr.Idx, x (d.lhsIdx (ix2 r c) k) * w (d.rhsIdx (ix2 r c) k) = ∑ k : Fin K, x (ix2 r k) * w (ix2 c k) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 c k := funext fun a => Fin.ext (by
    match a with
    | ⟨0, _⟩ => exact h.r0 _ _
    | ⟨1, _⟩ => exact (h.r1 _ _).trans hk)
  rw [el, er]

/-- A matrix unit's product of two narrowed operands into zeros, the right operand kept transposed, at `(r, c)`. -/
theorem matmul_zero_trans_apply {d : DotDims ⟨2, ![R, K]⟩ ⟨2, ![M, K]⟩ ⟨2, ![R, M]⟩} (h : TransDot d)
    (x : FVec Ideal ⟨2, ![R, K]⟩ .f32) (w : FVec Ideal ⟨2, ![M, K]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 c k) := by
  simp only [matmul]
  rw [Ideal.matmul_constant_zero_apply]
  exact h.sum_eq (fun i => x i) (fun i => w i) r c

/-- Index `j` of block `k`, among `B` blocks of `T` consecutive indices. -/
def blockIx {B T N : ℕ} (hN : N = B * T) (k : Fin B) (j : Fin T) : Fin N :=
  ⟨T * k.val + j.val, by
    subst hN
    calc T * k.val + j.val < T * k.val + T := Nat.add_lt_add_left j.isLt _
      _ = T * (k.val + 1) := (Nat.mul_succ _ _).symm
      _ ≤ T * B := Nat.mul_le_mul_left _ k.isLt
      _ = B * T := Nat.mul_comm _ _⟩

theorem blockIx_val {B T N : ℕ} (hN : N = B * T) (k : Fin B) (j : Fin T) : (blockIx hN k j).val = T * k.val + j.val := rfl

/-- A sum over `B · T` indices, block by block. -/
theorem sum_blocks {A : Type*} [AddCommMonoid A] {B T N : ℕ} (hN : N = B * T) (f : Fin N → A) :
    ∑ i : Fin N, f i = ∑ k : Fin B, ∑ j : Fin T, f (blockIx hN k j) := by
  subst hN
  rw [← Equiv.sum_comp finProdFinEquiv f, Fintype.sum_prod_type]
  refine Finset.sum_congr rfl fun k _ => Finset.sum_congr rfl fun j _ => congrArg f (Fin.ext ?_)
  show j.val + T * k.val = T * k.val + j.val
  exact Nat.add_comm _ _

end Cert.Lib

end
-- ==== Proof.KernelDots.lean ====
/-
  The two matrix-unit products of the kernel, as textbook products.

  The first kernel multiplies a `[512, 4096]` tile by a `[4096, 64]` tile, contracting the tile's column with the
  other's row: a plain product (`plainZ`). The second multiplies the `[512, 64]` projection by a `[4096, 64]` tile
  contracting the SECOND axis of both: a product with the transpose of the tile (`transY`). Each is read off the
  dimension numbers axis by axis.
-/
import proofs.«113373_j20349555048715_1_alg».proof.Proof.Gen.KernelIdeal
import proofs.«113373_j20349555048715_1_alg».proof.Proof.LibAffineRows
import proofs.«113373_j20349555048715_1_alg».proof.Proof.LibBlockedDot

noncomputable section

namespace Cert.KernelIdeal.Dots

open Idealize.ShloMosaic Cert.KernelIdeal Cert.KernelIdeal.Gen

theorem z_lhs_0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem z_lhs_1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem z_rhs_0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem z_rhs_1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The first kernel's product is the plain product of a `[512, 4096]` by a `[4096, 64]` matrix. -/
theorem plainZ : Cert.Lib.PlainDot (R := 512) (K := 4096) (M := 64) dot_S512x4096_S4096x64_S512x64_1_0_0_1_n_n :=
  ⟨rfl, rfl, z_lhs_0, z_lhs_1, z_rhs_0, z_rhs_1⟩

theorem y_lhs_0 (i : S512x4096.Idx) (q : dot_S512x64_S4096x64_S512x4096_1_1_0_0_n_n.contr.Idx) :
    (dot_S512x64_S4096x64_S512x4096_1_1_0_0_n_n.lhsIdx i q 0).val = (i 0).val := by
  unfold DotDims.lhsIdx
  rw [dif_neg (show ¬(0 : Fin S512x64.rank) ∈ dot_S512x64_S4096x64_S512x4096_1_1_0_0_n_n.lhsBatch by decide), dif_pos (show (0 : Fin S512x64.rank) ∈ dot_S512x64_S4096x64_S512x4096_1_1_0_0_n_n.lhsNonContracting by decide)]
  rfl
theorem y_lhs_1 (i : S512x4096.Idx) (q : dot_S512x64_S4096x64_S512x4096_1_1_0_0_n_n.contr.Idx) :
    (dot_S512x64_S4096x64_S512x4096_1_1_0_0_n_n.lhsIdx i q 1).val = (q ⟨0, by decide⟩).val :=
  dot_S512x64_S4096x64_S512x4096_1_1_0_0_n_n.lhsIdx_val_of_single rfl i q
theorem y_rhs_0 (i : S512x4096.Idx) (q : dot_S512x64_S4096x64_S512x4096_1_1_0_0_n_n.contr.Idx) :
    (dot_S512x64_S4096x64_S512x4096_1_1_0_0_n_n.rhsIdx i q 0).val = (i 1).val := by
  unfold DotDims.rhsIdx
  rw [dif_neg (show ¬(0 : Fin S4096x64.rank) ∈ dot_S512x64_S4096x64_S512x4096_1_1_0_0_n_n.rhsBatch by decide), dif_pos (show (0 : Fin S4096x64.rank) ∈ dot_S512x64_S4096x64_S512x4096_1_1_0_0_n_n.rhsNonContracting by decide)]
  rfl
theorem y_rhs_1 (i : S512x4096.Idx) (q : dot_S512x64_S4096x64_S512x4096_1_1_0_0_n_n.contr.Idx) :
    (dot_S512x64_S4096x64_S512x4096_1_1_0_0_n_n.rhsIdx i q 1).val = (q ⟨0, by decide⟩).val :=
  dot_S512x64_S4096x64_S512x4096_1_1_0_0_n_n.rhsIdx_val_of_single rfl i q

/-- The second kernel's product is that of a `[512, 64]` matrix by the transpose of a `[4096, 64]` matrix. -/
theorem transY : Cert.Lib.TransDot (R := 512) (K := 64) (M := 4096) dot_S512x64_S4096x64_S512x4096_1_1_0_0_n_n :=
  ⟨rfl, rfl, y_lhs_0, y_lhs_1, y_rhs_0, y_rhs_1⟩

end Cert.KernelIdeal.Dots

end
-- ==== Proof.RegionZ.lean ====
/-
  The first kernel region, read as a value: the projection `X · Vm`, accumulated block by block.

  The region has 8 points and ONE output block, the whole `[512, 64]` projection, whose index never moves: it stays in
  its buffer from point to point and is written back once, after the last point. Point `k` loads columns
  `4096 k … 4096 k + 4095` of `X` and the same rows of `Vm`, multiplies them on the matrix unit into zeros and adds the
  product to the block; point 0 first stores zeros there. So after point `n` entry `(b, r)` of the block is
  `∑ k ≤ n, ∑ j < 4096, X (b, 4096 k + j) · Vm (4096 k + j, r)` (`outsAt_apply`, by induction on the point), and after
  the last point that is the sum over all 32768 indices regrouped into 8 blocks of 4096, i.e. `X · Vm` (`total`):
  regrouping a sum of extended reals needs no finiteness. Everything is stated at the contents `V` the region finds.
-/
import proofs.«113373_j20349555048715_1_alg».proof.Proof.Gen.KernelIdeal.Frame
import proofs.«113373_j20349555048715_1_alg».proof.Proof.KernelDots
import proofs.«113373_j20349555048715_1_alg».proof.Proof.Spec
import Idealize.ShloMosaic.Lib.Pipeline.Value
import Idealize.ShloMosaic.Lib.Tactic

set_option maxRecDepth 16384

noncomputable section

namespace Cert.KernelIdeal.RegionZ

open Cert.KernelIdeal Cert.KernelIdeal.Gen
open Idealize.ShloMosaic Idealize.ShloMosaic.TcCoe Idealize.ShloMosaic.ValueIdx Idealize.SL.Sem
open Idealize.ShloMosaic.Pipeline (Dat)
open Cert.Lib (blockIx)

theorem hz : (![0, 0] : Fin 2 → Nat) = fun _ => 0 := funext fun a => by fin_cases a <;> rfl

/-! ## What each case of the body leaves in the output block -/

section Cases
variable {F : FTy → Type} [FloatOps F]

/-- A point other than the first: the block holding `xo` is left at the body's sum of `xo` and the tiles' product. -/
theorem out_B (c : Dev nD) (i : grid0.Coords) (a1 : Memref sig .tc .vmem S512x4096 .f32) (h1 : a1.IsWhole)
    (a2 : Memref sig .tc .vmem S4096x64 .f32) (h2 : a2.IsWhole) (a3 : Memref sig .tc .vmem S512x64 .f32) (h3 : a3.IsWhole)
    (hc : ¬cond0_0 i) (x0 : Vec F S512x4096 .f32) (x1 : Vec F S4096x64 .f32) (xo : Vec F S512x64 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S512x4096) hz,
    View.ld_unit_zero (S := S4096x64) hz, View.ld_unit_zero (S := S512x64) hz]

/-- The first point: zeros are stored, read back, and the block is left at the body's sum of zeros and the product. -/
theorem out_A (c : Dev nD) (i : grid0.Coords) (a1 : Memref sig .tc .vmem S512x4096 .f32) (h1 : a1.IsWhole)
    (a2 : Memref sig .tc .vmem S4096x64 .f32) (h2 : a2.IsWhole) (a3 : Memref sig .tc .vmem S512x64 .f32) (h3 : a3.IsWhole)
    (hc : cond0_0 i) (x0 : Vec F S512x4096 .f32) (x1 : Vec F S4096x64 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S512x64) hz, View.readCov_unit_zero (S := S512x64) _ hz]
  simp only [View.readAt_eq_ld, h1.read_unread, h2.read_unread, View.ld_unit_zero (S := S512x4096) hz,
    View.ld_unit_zero (S := S4096x64) hz]

end Cases

/-! ## The two stores at an index, over the extended reals -/

/-- The zeros the first point stores. -/
theorem pay1_apply (b : Fin 512) (r : Fin 64) : k0_pay1 (F := Ideal) (ix2 b r) = 0 := by
  show Ideal.ofBits .f32 0x00000000#32 = 0
  exact Ideal.ofBits_zero_f32

/-- The sum every point stores, at `(b, r)`: what the block held plus the tiles' product, a sum over the tile's
    4096 shared indices. -/
theorem pay2_apply (x0 : Vec Ideal S512x4096 .f32) (x1 : Vec Ideal S4096x64 .f32) (xo : Vec Ideal S512x64 .f32)
    (b : Fin 512) (r : Fin 64) :
    k0_pay2 x0 x1 xo (ix2 b r) = xo (ix2 b r) + ∑ j : Fin 4096, x0 (ix2 b j) * x1 (ix2 j r) := by
  have e : k0_pay2 x0 x1 xo = addf xo (matmul dot_S512x4096_S4096x64_S512x64_1_0_0_1_n_n none
      (truncf .bf16 x0 bitsLt_bf16_f32) (truncf .bf16 x1 bitsLt_bf16_f32) (constant S512x64 .f32 0x00000000#32)) := by
    unfold k0_pay2
    simp only [shapeCast_self]
  rw [e, addf_apply, Cert.Lib.matmul_zero_apply Cert.KernelIdeal.Dots.plainZ x0 x1 bitsLt_bf16_f32 b r]

/-! ## The accumulation -/

variable (V : (c : Dev nD) → (b : Ref sig .tc) → Buf (Elt Ideal) ((c : Thread nD τ).loc b))

/-- The block indices of the three windows at point `t`: `X`'s column block and `Vm`'s row block are `t`, the
    output's never move. Decided over the grid. -/
theorem idx0 : ∀ t : Fin cfg0.N, win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The two input blocks at a point, as matrices of their literal shapes. -/
abbrev xblk (c : Dev nD) (t : Fin cfg0.N) : Vec Ideal S512x4096 .f32 := iblk0 V c 0 t
abbrev vblk (c : Dev nD) (t : Fin cfg0.N) : Vec Ideal S4096x64 .f32 := iblk0 V c 1 t

/-- `X`'s block at point `k` is its columns `4096 k …`. -/
theorem xblk_apply (c : Dev nD) (k : Fin 8) (hk : k.val < cfg0.N) (b : Fin 512) (j : Fin 4096) :
    xblk V c ⟨k.val, hk⟩ (ix2 b j)
      = V c main_arg0 (ix2 b (blockIx (B := 8) (T := 4096) (N := 32768) rfl k j)) := by
  obtain ⟨e0, e1', -⟩ := idx0 ⟨k.val, hk⟩
  have e1 : win0_0.index ⟨k.val, hk⟩ (1 : Fin 2) = k.val := e1'
  unfold xblk iblk0
  rw [View.read_apply]
  show V c main_arg0 _ = V c main_arg0 _
  congr 1
  funext a
  apply Fin.ext
  match a with
  | ⟨0, _⟩ => show win0_0.index ⟨k.val, hk⟩ (0 : Fin 2) * 512 + 1 * b.val = b.val; rw [e0]; omega
  | ⟨1, _⟩ => show win0_0.index ⟨k.val, hk⟩ (1 : Fin 2) * 4096 + 1 * j.val = 4096 * k.val + j.val; rw [e1]; omega

/-- `Vm`'s block at point `k` is its rows `4096 k …`. -/
theorem vblk_apply (c : Dev nD) (k : Fin 8) (hk : k.val < cfg0.N) (j : Fin 4096) (r : Fin 64) :
    vblk V c ⟨k.val, hk⟩ (ix2 j r)
      = V c main_arg2 (ix2 (blockIx (B := 8) (T := 4096) (N := 32768) rfl k j) r) := by
  obtain ⟨-, -, e2', e3, -⟩ := idx0 ⟨k.val, hk⟩
  have e2 : win0_1.index ⟨k.val, hk⟩ (0 : Fin 2) = k.val := e2'
  unfold vblk iblk0
  rw [View.read_apply]
  show V c main_arg2 _ = V c main_arg2 _
  congr 1
  funext a
  apply Fin.ext
  match a with
  | ⟨0, _⟩ => show win0_1.index ⟨k.val, hk⟩ (0 : Fin 2) * 4096 + 1 * j.val = 4096 * k.val + j.val; rw [e2]; omega
  | ⟨1, _⟩ => show win0_1.index ⟨k.val, hk⟩ (1 : Fin 2) * 64 + 1 * r.val = r.val; rw [e3]; omega

/-- Point `k`'s contribution to entry `(b, r)`: the product of the two tiles there (nothing past the grid). -/
def blockTerm (c : Dev nD) (k : ℕ) (b : Fin 512) (r : Fin 64) : EReal :=
  if h : k < cfg0.N then
    ∑ j : Fin 4096, xblk V c ⟨k, h⟩ (ix2 b j) * vblk V c ⟨k, h⟩ (ix2 j r)
  else 0

/-- THE RUNNING SUM: after point `n` the output block holds, at `(b, r)`, the contributions of points `0 … n`. -/
theorem outsAt_apply (c : Dev nD) : ∀ (n : ℕ) (h : n < cfg0.N) (b : Fin 512) (r : Fin 64),
    outsAt0 V c n h (ix2 b r) = ∑ k ∈ Finset.range (n + 1), blockTerm V c k b r
  | 0, h, b, r => by
    rw [outsAt0_A V c ⟨0, h⟩ rfl, out_A, pay2_apply, pay1_apply, zero_add, Finset.sum_range_one]
    unfold blockTerm
    rw [dif_pos h]
  | n + 1, h, b, r => by
    have hN : cfg0.N = 8 := N_0
    have hB : ¬(⟨n + 1, h⟩ : Fin cfg0.N).val % 8 = 0 := by dsimp only; omega
    rw [outsAt0_B V c ⟨n + 1, h⟩ hB, out_B, pay2_apply, Finset.sum_range_succ _ (n + 1)]
    show outsAt0 V c n _ (ix2 b r) + _ = _
    rw [outsAt_apply c n _ b r]
    unfold blockTerm
    rw [dif_pos h]

/-- THE REGROUPING: the 8 contributions are the sum over all 32768 shared indices, i.e. entry `(b, r)` of `X · Vm`. -/
theorem total (c : Dev nD) (b : Fin 512) (r : Fin 64) :
    ∑ k ∈ Finset.range 8, blockTerm V c k b r
      = Cert.Spec.projAt (fun i => V c main_arg0 i) (fun i => V c main_arg2 i) b r := by
  unfold Cert.Spec.projAt
  rw [Cert.Lib.sum_blocks (B := 8) (T := 4096) (N := 32768) rfl, ← Fin.sum_univ_eq_sum_range (fun k => blockTerm V c k b r) 8]
  refine Finset.sum_congr rfl fun k _ => ?_
  have hk : k.val < cfg0.N := by rw [show cfg0.N = 8 from N_0]; exact k.isLt
  unfold blockTerm
  rw [dif_pos hk]
  refine Finset.sum_congr rfl fun j _ => ?_
  rw [xblk_apply V c k hk b j, vblk_apply V c k hk j r]

/-! ## The array after the region -/

/-- The output's one block is the whole array: entry `(b, r)` of the block is entry `(b, r)` of the array. -/
theorem emb_out (t : Fin cfg0.N) (b : Fin 512) (r : Fin 64) :
    ((cfg0.win 2).blk t).view.emb (ix2 b r) = (ix2 b r : S512x64.Idx) := by
  obtain ⟨-, -, -, -, e4, e5⟩ := idx0 t
  funext a
  apply Fin.ext
  match a with
  | ⟨0, _⟩ => show win0_2.index t (0 : Fin 2) * 512 + 1 * b.val = b.val; rw [e4]; omega
  | ⟨1, _⟩ => show win0_2.index t (1 : Fin 2) * 64 + 1 * r.val = r.val; rw [e5]; omega

/-- The output window's block is never cut short: what is written back of a buffer is the buffer. -/
theorem cut_apply (t : Fin cfg0.N) (acc : Vec Ideal S512x64 .f32) (j : S512x64.Idx) :
    (cfg0.win 2).cut (grid0.coords t) acc j = acc j := rfl

/-- Any array read through the output's block, at `(b, r)`: the array there. -/
theorem read_blk (t : Fin cfg0.N) (G : S512x64.Idx → EReal) (b : Fin 512) (r : Fin 64) :
    ((cfg0.win 2).blk t).view.read (Elt Ideal) G (ix2 b r) = G (ix2 b r) := by
  rw [View.read_apply]
  exact congrArg G (emb_out t b r)

/-- THE ONE WRITE-BACK, after the last point, writes `X · Vm` of the arrays the region finds. -/
theorem flushed_eq (c : Dev nD) (t : Fin cfg0.N) (hf : (cfg0.win 2).flush t = true) :
    (dat0 V c).flushed 2 t = ((cfg0.win 2).blk t).view.read (Elt Ideal)
      (Cert.Spec.proj (fun i => V c main_arg0 i) (fun i => V c main_arg2 i)) := by
  have hN : cfg0.N = 8 := N_0
  have h7 : t.val = 7 := by have := (flush0_2 t).mp hf; have := t.isLt; omega
  show (cfg0.win 2).cut (grid0.coords t) ((dat0 V c).after 2 t) = _
  rw [after0_2]
  refine funext fun (j : S512x64.Idx) => ?_
  obtain ⟨b, r, rfl⟩ : ∃ (b : Fin 512) (r : Fin 64), j = ix2 b r := ⟨j 0, j 1, eq_ix2 j⟩
  refine (cut_apply t (outsAt0 V c t.val t.isLt) (ix2 b r)).trans ?_
  have e8 : t.val + 1 = 8 := by omega
  refine Eq.trans ?_ (read_blk t _ b r).symm
  rw [outsAt_apply, Cert.Spec.proj_apply, e8]
  exact total V c b r

/-- An index of the projection is in point `t`'s block iff each coordinate is in the block's range on its axis. -/
theorem mem_blk (t : Fin cfg0.N) (i : S512x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v0).slice (win0_2.rect t)).set ↔ _
  rw [View.set_slice_whole, Rect.mem_set_unit]
  exact Iff.rfl

/-- The last point's block covers the array. -/
theorem cover (i : S512x64.Idx) :
    ∃ t : Fin cfg0.N, (cfg0.win 2).flush t = true ∧ i ∈ ((cfg0.win 2).blk t).view.set := by
  have h0 : (i 0).val < 512 := (i 0).isLt
  have h1 : (i 1).val < 64 := (i 1).isLt
  obtain ⟨-, -, -, -, e4, e5⟩ := idx0 t0_7
  refine ⟨t0_7, (flush0_2 t0_7).mpr rfl, ?_⟩
  rw [mem_blk]
  intro a
  match a with
  | ⟨0, _⟩ => show win0_2.index t0_7 (0 : Fin 2) * 512 ≤ (i 0).val ∧ (i 0).val < win0_2.index t0_7 (0 : Fin 2) * 512 + 512; rw [e4]; omega
  | ⟨1, _⟩ => show win0_2.index t0_7 (1 : Fin 2) * 64 ≤ (i 1).val ∧ (i 1).val < win0_2.index t0_7 (1 : Fin 2) * 64 + 64; rw [e5]; omega

/-- THE PROJECTION ARRAY after the region: `X · Vm` of the arrays the region finds. -/
theorem final (c : Dev nD) :
    (dat0 V c).arrAt 2 cfg0.N = Cert.Spec.proj (fun i => V c main_arg0 i) (fun i => V c main_arg2 i) :=
  (dat0 V c).arrAt_eq_of_cover 2 _ (flushed_eq V c) (cover)

end Cert.KernelIdeal.RegionZ

end
-- ==== Proof.RegionY.lean ====
/-
  The second kernel region, read as a value: the expansion `z · Umᵀ`.

  The region has 8 points. Point `t` loads the whole `[512, 64]` projection `z` (its block index never moves) and
  rows `4096 t … 4096 t + 4095` of the `[32768, 64]` factor, multiplies the first by the transpose of the second on
  the matrix unit into zeros, and writes the `[512, 4096]` product back as columns `4096 t … 4096 t + 4095` of the
  result. Entry `(b, p)` of that product is `∑ r, z (b, r) · Um (4096 t + p, r)`, which is entry `(b, 4096 t + p)` of
  `z · Umᵀ`; the 8 column blocks tile the result, so the result array ends holding `z · Umᵀ` whole.
  Everything is stated at the contents `V` the region finds on entry.
-/
import proofs.«113373_j20349555048715_1_alg».proof.Proof.Gen.KernelIdeal.Frame
import proofs.«113373_j20349555048715_1_alg».proof.Proof.KernelDots
import proofs.«113373_j20349555048715_1_alg».proof.Proof.Spec
import Idealize.ShloMosaic.Lib.Pipeline.Value

set_option maxRecDepth 16384

noncomputable section

namespace Cert.KernelIdeal.RegionY

open Cert.KernelIdeal Cert.KernelIdeal.Gen
open Idealize.ShloMosaic Idealize.ShloMosaic.TcCoe Idealize.ShloMosaic.ValueIdx Idealize.SL.Sem
open Idealize.ShloMosaic.Pipeline (Dat)
open Cert.Lib (blockIx)

variable (V : (c : Dev nD) → (b : Ref sig .tc) → Buf (Elt Ideal) ((c : Thread nD τ).loc b))

theorem hz : (![0, 0] : Fin 2 → Nat) = fun _ => 0 := funext fun a => by fin_cases a <;> rfl

/-- A point of the grid as one of the 8 column blocks. -/
def blockOf (t : Fin cfg1.N) : Fin 8 := ⟨t.val, lt_of_lt_of_eq t.isLt N_1⟩

/-- The block indices of the three windows at point `t`: the projection's never move, the factor's row block and
    the result's column block are `t`. Decided over the grid. -/
theorem idx1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- The projection's block at any point is the projection. -/
theorem zblk_apply (c : Dev nD) (t : Fin cfg1.N) (b : Fin 512) (r : Fin 64) :
    (iblk1 V c 0 t : Vec Ideal S512x64 .f32) (ix2 b r) = V c main_v0 (ix2 b r) := by
  obtain ⟨e0, e1, -⟩ := idx1 t
  unfold iblk1
  rw [View.read_apply]
  show V c main_v0 _ = V c main_v0 _
  congr 1
  funext a
  apply Fin.ext
  match a with
  | ⟨0, _⟩ => show win1_0.index t (0 : Fin 2) * 512 + 1 * b.val = b.val; rw [e0]; omega
  | ⟨1, _⟩ => show win1_0.index t (1 : Fin 2) * 64 + 1 * r.val = r.val; rw [e1]; omega

/-- The factor's block at point `t` is its rows `4096 t …`. -/
theorem ublk_apply (c : Dev nD) (t : Fin cfg1.N) (p : Fin 4096) (r : Fin 64) :
    (iblk1 V c 1 t : Vec Ideal S4096x64 .f32) (ix2 p r)
      = V c main_arg1 (ix2 (blockIx (B := 8) (T := 4096) (N := 32768) rfl (blockOf t) p) r) := by
  obtain ⟨-, -, e2, e3, -⟩ := idx1 t
  unfold iblk1
  rw [View.read_apply]
  show V c main_arg1 _ = V c main_arg1 _
  congr 1
  funext a
  apply Fin.ext
  match a with
  | ⟨0, _⟩ => show win1_1.index t (0 : Fin 2) * 4096 + 1 * p.val = 4096 * t.val + p.val; rw [e2]; omega
  | ⟨1, _⟩ => show win1_1.index t (1 : Fin 2) * 64 + 1 * r.val = r.val; rw [e3]; omega

/-- The body's one store, at `(b, p)`: the product with the transpose, a sum over the 64 shared columns. -/
theorem pay_apply (x0 : Vec Ideal S512x64 .f32) (x1 : Vec Ideal S4096x64 .f32) (b : Fin 512) (p : Fin 4096) :
    k1_pay1 x0 x1 (ix2 b p) = ∑ r : Fin 64, x0 (ix2 b r) * x1 (ix2 p r) := by
  have e : k1_pay1 x0 x1 = matmul dot_S512x64_S4096x64_S512x4096_1_1_0_0_n_n none (truncf .bf16 x0 bitsLt_bf16_f32)
      (truncf .bf16 x1 bitsLt_bf16_f32) (constant S512x4096 .f32 0x00000000#32) := by
    unfold k1_pay1
    simp only [shapeCast_self]
  rw [e]
  exact Cert.Lib.matmul_zero_trans_apply Cert.KernelIdeal.Dots.transY x0 x1 bitsLt_bf16_f32 b p

/-- Where entry `(b, p)` of point `t`'s block lies in the result array: column `4096 t + p`. -/
theorem emb_out (t : Fin cfg1.N) (b : Fin 512) (p : Fin 4096) :
    ((cfg1.win 2).blk t).view.emb (ix2 b p) = (ix2 b (blockIx (B := 8) (T := 4096) (N := 32768) rfl (blockOf t) p) : S512x32768.Idx) := by
  obtain ⟨-, -, -, -, e4, e5⟩ := idx1 t
  funext a
  apply Fin.ext
  match a with
  | ⟨0, _⟩ => show win1_2.index t (0 : Fin 2) * 512 + 1 * b.val = b.val; rw [e4]; omega
  | ⟨1, _⟩ => show win1_2.index t (1 : Fin 2) * 4096 + 1 * p.val = 4096 * t.val + p.val; rw [e5]; omega

/-- WHAT POINT `t` WRITES BACK is block `t` of `z · Umᵀ`, `z` and `Um` the arrays the region finds. -/
theorem flushed_eq (c : Dev nD) (t : Fin cfg1.N) :
    (dat1 V c).flushed 2 t = ((cfg1.win 2).blk t).view.read (Elt Ideal)
      (Cert.Spec.expand (fun i => V c main_v0 i) (fun i => V c main_arg1 i)) := by
  show (cfg1.win 2).cut (grid1.coords t) ((dat1 V c).after 2 t) = _
  rw [after1_2]
  unfold out1_2
  rw [View.canon_unit_zero hz]
  simp only [View.ld_unit_zero (S := S512x64) hz, View.ld_unit_zero (S := S4096x64) hz]
  refine funext fun (j : S512x4096.Idx) => ?_
  obtain ⟨b, p, rfl⟩ : ∃ (b : Fin 512) (p : Fin 4096), j = ix2 b p := ⟨j 0, j 1, eq_ix2 j⟩
  show k1_pay1 (iblk1 V c 0 t) (iblk1 V c 1 t) (ix2 b p)
    = Cert.Spec.expand (fun i => V c main_v0 i) (fun i => V c main_arg1 i) (((cfg1.win 2).blk t).view.emb (ix2 b p))
  rw [pay_apply, emb_out, Cert.Spec.expand_apply]
  unfold Cert.Spec.expandAt
  refine Finset.sum_congr rfl fun r _ => ?_
  rw [zblk_apply, ublk_apply]

/-- An index of the result is in point `t`'s block iff each coordinate is in the block's range on its axis. -/
theorem mem_blk (t : Fin cfg1.N) (i : S512x32768.Idx) :
    i ∈ ((cfg1.win 2).blk t).view.set ↔ ∀ a : Fin 2, win1_2.index t a * S512x4096.size a ≤ (i a).val ∧ (i a).val < win1_2.index t a * S512x4096.size a + S512x4096.size a := by
  show i ∈ ((View.whole main_v1).slice (win1_2.rect t)).set ↔ _
  rw [View.set_slice_whole, Rect.mem_set_unit]
  exact Iff.rfl

/-- The 8 column blocks tile the result: column `q` is in block `q / 4096`. -/
theorem cover (i : S512x32768.Idx) :
    ∃ t : Fin cfg1.N, (cfg1.win 2).flush t = true ∧ i ∈ ((cfg1.win 2).blk t).view.set := by
  have h0 : (i 0).val < 512 := (i 0).isLt
  have h1 : (i 1).val < 32768 := (i 1).isLt
  obtain ⟨t, ht⟩ : ∃ t : Fin cfg1.N, t.val = (i 1).val / 4096 :=
    ⟨⟨(i 1).val / 4096, by rw [show cfg1.N = 8 from N_1]; omega⟩, rfl⟩
  obtain ⟨-, -, -, -, e4, e5⟩ := idx1 t
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; rw [e4]; omega
  | ⟨1, _⟩ => show win1_2.index t (1 : Fin 2) * 4096 ≤ (i 1).val ∧ (i 1).val < win1_2.index t (1 : Fin 2) * 4096 + 4096; rw [e5]; omega

/-- THE RESULT ARRAY after the region: `z · Umᵀ` of the arrays the region finds. -/
theorem final (c : Dev nD) :
    (dat1 V c).arrAt 2 cfg1.N = Cert.Spec.expand (fun i => V c main_v0 i) (fun i => V c main_arg1 i) :=
  (dat1 V c).arrAt_eq_of_cover 2 _ (fun t _ => flushed_eq V c t) (cover)

end Cert.KernelIdeal.RegionY

end
-- ==== Proof.KernelValue.lean ====
/-
  The kernel program's result, through both regions.

  The second region finds, as its projection array, what the first region's write-back left, which is `X · Vm` of the
  launch contents (the first region's inputs are arguments no one writes); its factor `Um` is an argument the first
  region does not touch. So the result array ends at `(X · Vm) · Umᵀ` of the launch contents of the first three
  arguments, and the run of the whole program is re-posted with the result named so.
-/
import proofs.«113373_j20349555048715_1_alg».proof.Proof.KernelRun
import proofs.«113373_j20349555048715_1_alg».proof.Proof.RegionZ
import proofs.«113373_j20349555048715_1_alg».proof.Proof.RegionY

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The specification at the launch contents of the three arguments the programs read. -/
abbrev spec (c : Dev nD) : Cert.Spec.SX.Idx → EReal :=
  Cert.Spec.lowRank (fun i => m ((c.tc : Thread nD τ).loc main_arg0) i) (fun i => m ((c.tc : Thread nD τ).loc main_arg1) i)
    (fun i => m ((c.tc : Thread nD τ).loc main_arg2) i)

/-- The projection array as the second region finds it: `X · Vm` of the launch contents. -/
theorem proj_eq (c : Dev nD) :
    V1 m ρ c main_v0 = Cert.Spec.proj (fun i => m ((c.tc : Thread nD τ).loc main_arg0) i) (fun i => m ((c.tc : Thread nD τ).loc main_arg2) i) :=
  (W1_arr m ρ c 2).trans (Cert.KernelIdeal.RegionZ.final (V0 m ρ) c)

/-- The factor `Um` as the second region finds it: its launch contents. -/
theorem factor_eq (c : Dev nD) : V1 m ρ c main_arg1 = m ((c.tc : Thread nD τ).loc main_arg1) :=
  W1_of_ne m ρ c main_arg1 (by decide)

/-- The result array after the last region. -/
theorem result_eq (c : Dev nD) : W2 m ρ c (Proc.devRef .tc main_v1) = spec m c := by
  refine (W2_arr m ρ c 2).trans ((Cert.KernelIdeal.RegionY.final (V1 m ρ) c).trans ?_)
  show Cert.Spec.expand (V1 m ρ c main_v0) (V1 m ρ c main_arg1) = _
  rw [proj_eq, factor_eq]
  rfl

/-- The program's run, with the result named: every weakly fair execution terminates with the result array at the
    specification of the launch contents and the arguments unchanged. -/
theorem run : θ_run defs (onTc (τ := τ) (main (F := Ideal))) ⟨m, fun _ => 0, ρ⟩ (fun r => ∀ c : Dev nD,
      r.2.mem ((c.tc : Thread nD τ).loc main_v1) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.Named.run m ρ)

end Cert.KernelIdeal.Result

end
-- ==== Proof.lean ====
/-
  A low-rank synapse: `y = X · Vm · Umᵀ` for `X` of shape `[512, 32768]` and two `[32768, 64]` factors.

  The kernel program computes it in two pipelined regions. The first forms the `[512, 64]` projection `X · Vm` by
  accumulating, over 8 grid points, the products of 4096-column tiles of `X` with the matching 4096-row tiles of `Vm`;
  the second forms the result 4096 columns at a time as the projection times the transpose of a 4096-row tile of `Um`.
  The reference computes `X · Vm` by one product, transposes `Um`, and multiplies. Over the extended reals narrowing to
  bf16 is the identity and every product is the textbook sum, so the two agree as soon as the sum over the 32768 shared
  indices is regrouped into 8 blocks of 4096 — a regrouping of a finite sum in a commutative monoid, which needs no
  finiteness of the inputs; the precondition is not used. The three sparse-mask arguments are read by neither program.

    Spec.lean          the function `lowRank`
    LibAffineRows.lean, LibBlockedDot.lean, KernelDots.lean
                       the matrix-unit products as sums; a sum over B·T indices block by block
    RefValue.lean      the reference is `lowRank`
    RegionZ.lean       the first region leaves `X · Vm`         RegionY.lean   the second leaves `z · Umᵀ`
    KernelRun.lean, KernelValue.lean
                       the kernel program's run with its result at `lowRank` of the launch contents
  The idealized kernel is the kernel's own text (no operation was rewritten), so `preserves` has nothing to state.
-/
import proofs.«113373_j20349555048715_1_alg».proof.Defs
import proofs.«113373_j20349555048715_1_alg».proof.Proof.Gen.Kernel
import proofs.«113373_j20349555048715_1_alg».proof.Proof.Gen.Kernel.Skeleton
import proofs.«113373_j20349555048715_1_alg».proof.Proof.Gen.Kernel.Launch
import proofs.«113373_j20349555048715_1_alg».proof.Proof.Gen.Kernel.Points
import proofs.«113373_j20349555048715_1_alg».proof.Proof.Gen.Kernel.Frame
import proofs.«113373_j20349555048715_1_alg».proof.Proof.Gen.KernelIdeal
import proofs.«113373_j20349555048715_1_alg».proof.Proof.Gen.KernelIdeal.Skeleton
import proofs.«113373_j20349555048715_1_alg».proof.Proof.Gen.KernelIdeal.Launch
import proofs.«113373_j20349555048715_1_alg».proof.Proof.Gen.KernelIdeal.Points
import proofs.«113373_j20349555048715_1_alg».proof.Proof.Gen.KernelIdeal.Frame
import proofs.«113373_j20349555048715_1_alg».proof.Proof.Gen.ReferenceIdeal
import proofs.«113373_j20349555048715_1_alg».proof.Proof.Gen.ReferenceIdeal.Run
import proofs.«113373_j20349555048715_1_alg».proof.Proof.Gen.ReferenceIdeal.Read
import proofs.«113373_j20349555048715_1_alg».proof.Proof.Gen.Pre_finite_inputs
import proofs.«113373_j20349555048715_1_alg».proof.Proof.RefValue
import proofs.«113373_j20349555048715_1_alg».proof.Proof.KernelValue
import Idealize.ShloMosaic.Adequacy
import Idealize.ShloMosaic.Init

noncomputable section

namespace Cert.Proof

open Idealize.ShloMosaic Idealize.SL.Sem

/-- Both idealized programs, from memories agreeing on the arguments, end with the result at `X · Vm · Umᵀ` of the
    kernel program's launch contents: the kernel's by its two regions, the reference's by its three operations. -/
theorem algebraic : Cert.algebraic_KernelIdeal_ReferenceIdeal
    (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq,
    (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
